-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : FVec F S8192x128 .f32) (main_arg3 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S512 : Shape := ⟨1, ![512]⟩
abbrev S1024 : Shape := ⟨1, ![1024]⟩
abbrev S1024x1 : Shape := ⟨2, ![1024, 1]⟩
abbrev S128x1024 : Shape := ⟨2, ![128, 1024]⟩
abbrev S512x1024 : Shape := ⟨2, ![512, 1024]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512, .f32⟩
  | .local _ .vmem, ⟨9, _⟩ => ⟨S512, .f32⟩
  | .local _ .vmem, ⟨10, _⟩ => ⟨S512x128, .bf16⟩
  | .local _ .vmem, ⟨11, _⟩ => ⟨S512x1, .f32⟩
  | .local _ .vmem, ⟨12, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  shapeCasts_S512x128_S512x128 : S512x128.ShapeCasts S512x128
  packedbf16_S512x128_S512x128_0_0 : (Rect.unit (s := S512x128) ![0, 0] S512x128.size inb_S512x128_S512x128_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512x1_S512 : S512x1.ShapeCasts S512
  inb_S512_S512_0 : ∀ a, (![0] : Fin 1 → Nat) a + S512.size a ≤ S512.size a
  h_S512 : 0 < S512.numel
  reducesTo_S8192_S_d0 : S8192.ReducesTo [0] S_
  h_S_ : 0 < S_.numel
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .f32 = 32 ∨ (Rect.block (s := S8192) S512.size (cc0_transform_4 i) (hinb0_4 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S128x8192, .f32⟩
  | .hbm, ⟨25, _⟩ => ⟨S8192x8192, .f32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_call1_v0 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_call2_cst : Ref sig .tc := ⟨.hbm, 46, rfl⟩
abbrev main_call2_v0 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What each control case of the kernel body leaves in the carried scratch buffers and in the output block, as the
  body's own arithmetic applied to the blocks it loads: the running minimum is updated from the one the point before
  left (or from the reset value at the first point of a row of points), the running maximum likewise, the scaled
  anchor block is written at the first point only, and the last point of a row of points writes the loss.
-/
import proofs.«178952_j40956808135241_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz1 : (![0] : Fin 1 → Nat) = fun _ => 0 := funext fun a => by fin_cases a <;> rfl

/-! ## The first point of a row of points: reset, then one update -/

/-- The scaled anchor block. -/
theorem scaled_first (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x128 .f32) (x1 : Vec F S1024x128 .f32) (x2 : Vec F S512x1 .i32) (x3 : Vec F S1x1024 .i32) :
    sout0_A_0 c i arg2 harg2 arg3 harg3 arg4 harg4 arg5 harg5 arg6 harg6 arg7 harg7 arg8 harg8 arg9 harg9 hc0 hc1 x0 x1 x2 x3 = k0_pay3 x0 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2]

/-- The running minimum: the reset value updated with the first band. -/
theorem min_first (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x128 .f32) (x1 : Vec F S1024x128 .f32) (x2 : Vec F S512x1 .i32) (x3 : Vec F S1x1024 .i32) :
    sout0_A_1 c i arg2 harg2 arg3 harg3 arg4 harg4 arg5 harg5 arg6 harg6 arg7 harg7 arg8 harg8 arg9 harg9 hc0 hc1 x0 x1 x2 x3 = k0_pay9 x1 (k0_pay3 x0) x2 x3 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2, View.readCov_unit_zero (S := S512x128) _ hz2, View.readCov_unit_zero (S := S512x1) _ hz2]

/-- The running maximum: the reset value updated with the first band. -/
theorem max_first (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S512x128 .f32) (x1 : Vec F S1024x128 .f32) (x2 : Vec F S512x1 .i32) (x3 : Vec F S1x1024 .i32) :
    sout0_A_2 c i arg2 harg2 arg3 harg3 arg4 harg4 arg5 harg5 arg6 harg6 arg7 harg7 arg8 harg8 arg9 harg9 hc0 hc1 x0 x1 x2 x3 = k0_pay1 (k0_pay8 x1 (k0_pay3 x0) x2 x3) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2, View.readCov_unit_zero (S := S512x128) _ hz2, View.readCov_unit_zero (S := S512x1) _ hz2]

/-! ## A middle point: one update of what the point before left -/

theorem min_mid (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x128 .bf16) (xs1 : Vec F S512x1 .f32) (xs2 : Vec F S512x1 .f32) :
    sout0_B_1 c i arg2 harg2 arg3 harg3 arg4 harg4 arg5 harg5 arg6 harg6 arg7 harg7 arg8 harg8 arg9 harg9 hc0 hc1 x0 x1 x2 x3 xs0 xs1 xs2 = k0_pay9 x1 xs0 x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2]

theorem max_mid (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x128 .bf16) (xs1 : Vec F S512x1 .f32) (xs2 : Vec F S512x1 .f32) :
    sout0_B_2 c i arg2 harg2 arg3 harg3 arg4 harg4 arg5 harg5 arg6 harg6 arg7 harg7 arg8 harg8 arg9 harg9 hc0 hc1 x0 x1 x2 x3 xs0 xs1 xs2 = k0_pay1 (k0_pay8 x1 xs0 x2 x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2]

/-! ## The last point of a row of points: one update, then the loss -/

theorem min_last (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x128 .bf16) (xs1 : Vec F S512x1 .f32) (xs2 : Vec F S512x1 .f32) :
    sout0_C_1 c i arg2 harg2 arg3 harg3 arg4 harg4 arg5 harg5 arg6 harg6 arg7 harg7 arg8 harg8 arg9 harg9 hc0 hc1 x0 x1 x2 x3 xs0 xs1 xs2 = k0_pay9 x1 xs0 x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2]

theorem max_last (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x128 .bf16) (xs1 : Vec F S512x1 .f32) (xs2 : Vec F S512x1 .f32) :
    sout0_C_2 c i arg2 harg2 arg3 harg3 arg4 harg4 arg5 harg5 arg6 harg6 arg7 harg7 arg8 harg8 arg9 harg9 hc0 hc1 x0 x1 x2 x3 xs0 xs1 xs2 = k0_pay1 (k0_pay8 x1 xs0 x2 x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2]

/-- The output block: the loss of the two running extrema as just updated. -/
theorem loss_last (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512 .f32) (harg6 : arg6.IsWhole) (arg7 : Memref sig .tc .vmem S512x128 .bf16) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x128 .bf16) (xs1 : Vec F S512x1 .f32) (xs2 : Vec F S512x1 .f32) :
    out0_C_4 c i arg2 harg2 arg3 harg3 arg4 harg4 arg5 harg5 arg6 harg6 arg7 harg7 arg8 harg8 arg9 harg9 hc0 hc1 x0 x1 x2 x3 xs0 xs1 xs2
      = k0_pay2 (k0_pay1 (k0_pay8 x1 xs0 x2 x3) xs2) (k0_pay9 x1 xs0 x2 x3 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz1]
  simp only [View.readAt_eq_ld, harg2.read_unread, harg3.read_unread, harg4.read_unread, harg5.read_unread, harg7.read_unread, harg8.read_unread, harg9.read_unread, View.ld_unit_zero (S := S512x128) hz2, View.ld_unit_zero (S := S1024x128) hz2, View.ld_unit_zero (S := S512x1) hz2, View.ld_unit_zero (S := S1x1024) hz2, View.readCov_unit_zero (S := S512x128) _ hz2, View.readCov_unit_zero (S := S512x1) _ hz2]

end Cert.KernelIdeal.Pieces

end
-- ==== Proof.LibBands.lean ====
/-
  Extrema of a function on `Fin N` taken band by band.

  For `f : Fin N → α` and a band width `b`: the infimum of `f` over the indices below `(k + 1) * b` is the infimum
  over the indices below `k * b` combined with the infimum over the `b` indices `k * b, …, k * b + b - 1` of band
  `k`; below `0` it is `⊤`, below `N` it is the infimum over all indices. The same for suprema from `⊥`.
  And a fold of `min` from `⊤` (of `max` from `⊥`) over a finite set is that set's infimum (supremum), so a
  reduction printed as such a fold can be compared by its universal property instead of its order of evaluation.
-/
import Mathlib.Data.Finset.Fold
import Mathlib.Data.Finset.Lattice.Fold
import Mathlib.Data.Fintype.Basic
import Mathlib.Order.Fin.Basic

namespace Cert.LibBands

variable {α : Type} {ι : Type}

/-! ## A fold of `min` / `max` is an infimum / supremum -/

/-- The fold of `min` from the top element over a finite set is the set's infimum. -/
theorem fold_min_eq_inf [LinearOrder α] [OrderTop α] (s : Finset ι) (f : ι → α) :
    s.fold min ⊤ f = s.inf f := by
  classical
  induction s using Finset.induction_on with
  | empty => rw [Finset.fold_empty, Finset.inf_empty]
  | insert a s ha ih => rw [Finset.fold_insert ha, Finset.inf_insert, ih]

/-- The fold of `max` from the bottom element over a finite set is the set's supremum. -/
theorem fold_max_eq_sup [LinearOrder α] [OrderBot α] (s : Finset ι) (f : ι → α) :
    s.fold max ⊥ f = s.sup f := by
  classical
  induction s using Finset.induction_on with
  | empty => rw [Finset.fold_empty, Finset.sup_empty]
  | insert a s ha ih => rw [Finset.fold_insert ha, Finset.sup_insert, ih]

/-! ## The indices below a bound, and one band of them -/

variable {N : ℕ}

/-- The indices of `Fin N` whose value is below `m`. -/
def below (N m : ℕ) : Finset (Fin N) := Finset.univ.filter fun j => j.val < m

theorem mem_below {m : ℕ} (j : Fin N) : j ∈ below N m ↔ j.val < m := by
  unfold below; rw [Finset.mem_filter]; exact and_iff_right (Finset.mem_univ _)

/-- No index is below zero. -/
theorem below_zero : below N 0 = ∅ := by
  ext j; rw [mem_below]; exact iff_of_false (Nat.not_lt_zero _) (Finset.notMem_empty _)

/-- Every index is below the extent. -/
theorem below_self : below N N = Finset.univ := by
  ext j; rw [mem_below]; exact iff_of_true j.isLt (Finset.mem_univ _)

/-- Index `k * b + q` of band `k`, when band `k` lies inside `Fin N`. -/
def bandIdx (b k : ℕ) (h : (k + 1) * b ≤ N) (q : Fin b) : Fin N :=
  ⟨k * b + q.val, by have := q.isLt; have e : (k + 1) * b = k * b + b := Nat.succ_mul k b; omega⟩

theorem bandIdx_val (b k : ℕ) (h : (k + 1) * b ≤ N) (q : Fin b) : (bandIdx b k h q).val = k * b + q.val := rfl

/-! ## Infima band by band -/

/-- The infimum over the indices below `(k + 1) * b` is the one below `k * b` met with the one over band `k`. -/
theorem inf_below_succ [SemilatticeInf α] [OrderTop α] (f : Fin N → α) (b k : ℕ) (h : (k + 1) * b ≤ N) :
    (below N ((k + 1) * b)).inf f = (below N (k * b)).inf f ⊓ Finset.univ.inf fun q : Fin b => f (bandIdx b k h q) := by
  have e : (k + 1) * b = k * b + b := Nat.succ_mul k b
  apply le_antisymm
  · refine le_inf (Finset.le_inf fun j hj => Finset.inf_le ?_) (Finset.le_inf fun q _ => Finset.inf_le ?_)
    · rw [mem_below] at hj ⊢; omega
    · rw [mem_below, bandIdx_val]; have := q.isLt; omega
  · refine Finset.le_inf fun j hj => ?_
    rw [mem_below] at hj
    by_cases hlt : j.val < k * b
    · exact inf_le_left.trans (Finset.inf_le ((mem_below j).2 hlt))
    · have hq : j.val - k * b < b := by omega
      refine inf_le_right.trans ((Finset.inf_le (Finset.mem_univ (⟨j.val - k * b, hq⟩ : Fin b))).trans (le_of_eq ?_))
      exact congrArg f (Fin.ext (by rw [bandIdx_val]; show k * b + (j.val - k * b) = j.val; omega))

/-- The supremum over the indices below `(k + 1) * b` is the one below `k * b` joined with the one over band `k`. -/
theorem sup_below_succ [SemilatticeSup α] [OrderBot α] (f : Fin N → α) (b k : ℕ) (h : (k + 1) * b ≤ N) :
    (below N ((k + 1) * b)).sup f = (below N (k * b)).sup f ⊔ Finset.univ.sup fun q : Fin b => f (bandIdx b k h q) := by
  have e : (k + 1) * b = k * b + b := Nat.succ_mul k b
  apply le_antisymm
  · refine Finset.sup_le fun j hj => ?_
    rw [mem_below] at hj
    by_cases hlt : j.val < k * b
    · exact (Finset.le_sup ((mem_below j).2 hlt)).trans le_sup_left
    · have hq : j.val - k * b < b := by omega
      refine le_trans (le_of_eq ?_) ((Finset.le_sup (Finset.mem_univ (⟨j.val - k * b, hq⟩ : Fin b))).trans le_sup_right)
      exact congrArg f (Fin.ext (by rw [bandIdx_val]; show j.val = k * b + (j.val - k * b); omega))
  · refine sup_le (Finset.sup_le fun j hj => Finset.le_sup ?_) (Finset.sup_le fun q _ => Finset.le_sup ?_)
    · rw [mem_below] at hj ⊢; omega
    · rw [mem_below, bandIdx_val]; have := q.isLt; omega

end Cert.LibBands
-- ==== Proof.Spec.lean ====
/-
  The triplet cosine loss, row by row, over the extended reals.

  For anchors `A` (rows of 128 numbers, labels `al`) and samples `S` (labels `sl`):
  * a row is scaled by `max (sqrt (Σ_d x_d²)) ε` (`rowScale`, `unitRow`);
  * the similarity of anchor `r` and sample `j` is the inner product of their scaled rows (`cosSim`);
  * the hardest positive of anchor `r` is the infimum over the samples of the similarity where the labels agree and
    `⊤` where they do not (`hardPos`), the hardest negative the supremum of `⊥` where they agree and the similarity
    where they do not (`hardNeg`);
  * the row's loss is `max (hardNeg - hardPos + margin) 0` (`rowLoss`).
  The samples taken 1024 at a time: `prefPos kb` / `prefNeg kb` are the extrema over the first `kb` bands, each the
  one before combined with its band's own extremum, `⊤` / `⊥` before the first band and the whole extremum after the
  eighth.
-/
import Idealize.ShloMosaic.PureOps.Ideal
import proofs.«178952_j40956808135241_1_alg».proof.Proof.LibBands

noncomputable section

namespace Cert.Triplet

open Idealize.ShloMosaic Cert.LibBands

/-- The floor of a row's scale, `ε`, as the extended real its word denotes. -/
abbrev eps : EReal := Ideal.ofBits .f32 0x2B8CBCCC#32
/-- The margin, as the extended real its word denotes. -/
abbrev margin : EReal := Ideal.ofBits .f32 0x3E99999A#32
/-- The zero the loss is clipped at. -/
abbrev zero : EReal := Ideal.ofBits .f32 0x00000000#32

variable {n k : ℕ}

/-- A row's scale: the larger of its Euclidean length and `ε`. -/
def rowScale (X : Fin n → Fin 128 → EReal) (r : Fin n) : EReal :=
  max (Ideal.sqrt (∑ d : Fin 128, X r d * X r d)) eps

/-- A row divided by its scale. -/
def unitRow (X : Fin n → Fin 128 → EReal) (r : Fin n) (d : Fin 128) : EReal :=
  Ideal.div (X r d) (rowScale X r)

/-- The scaled row depends on the row's own entries only. -/
theorem unitRow_congr {n' : ℕ} (X : Fin n → Fin 128 → EReal) (Y : Fin n' → Fin 128 → EReal) (r : Fin n) (r' : Fin n')
    (h : ∀ d, X r d = Y r' d) (d : Fin 128) : unitRow X r d = unitRow Y r' d := by
  unfold unitRow rowScale
  rw [h d]
  exact congrArg (fun s => Ideal.div (Y r' d) (max (Ideal.sqrt s) eps)) (Finset.sum_congr rfl fun e _ => by rw [h e])

/-- The similarity of anchor row `r` and sample row `j`: the inner product of the scaled rows. -/
def cosSim (A : Fin n → Fin 128 → EReal) (S : Fin k → Fin 128 → EReal) (r : Fin n) (j : Fin k) : EReal :=
  ∑ d : Fin 128, unitRow A r d * unitRow S j d

/-- What sample `j` offers anchor `r` as a positive: the similarity if the labels agree, else `⊤`. -/
def posTerm (al : Fin n → BitVec 32) (sl : Fin k → BitVec 32) (A : Fin n → Fin 128 → EReal) (S : Fin k → Fin 128 → EReal)
    (r : Fin n) (j : Fin k) : EReal :=
  Scalar.select (IntOp.cmpi .eq (al r) (sl j)) (cosSim A S r j) ⊤

/-- What sample `j` offers anchor `r` as a negative: `⊥` if the labels agree, else the similarity. -/
def negTerm (al : Fin n → BitVec 32) (sl : Fin k → BitVec 32) (A : Fin n → Fin 128 → EReal) (S : Fin k → Fin 128 → EReal)
    (r : Fin n) (j : Fin k) : EReal :=
  Scalar.select (IntOp.cmpi .eq (al r) (sl j)) ⊥ (cosSim A S r j)

/-- The hardest positive: the least similarity among the samples of the anchor's label. -/
def hardPos (al : Fin n → BitVec 32) (sl : Fin k → BitVec 32) (A : Fin n → Fin 128 → EReal) (S : Fin k → Fin 128 → EReal)
    (r : Fin n) : EReal := Finset.univ.inf (posTerm al sl A S r)

/-- The hardest negative: the greatest similarity among the samples of another label. -/
def hardNeg (al : Fin n → BitVec 32) (sl : Fin k → BitVec 32) (A : Fin n → Fin 128 → EReal) (S : Fin k → Fin 128 → EReal)
    (r : Fin n) : EReal := Finset.univ.sup (negTerm al sl A S r)

/-- The loss of a row from its two extrema. -/
def lossOf (neg pos : EReal) : EReal := max (neg - pos + margin) zero

/-- The loss of anchor row `r`. -/
def rowLoss (al : Fin n → BitVec 32) (sl : Fin k → BitVec 32) (A : Fin n → Fin 128 → EReal) (S : Fin k → Fin 128 → EReal)
    (r : Fin n) : EReal := lossOf (hardNeg al sl A S r) (hardPos al sl A S r)

/-! ## The 8192 samples taken in eight bands of 1024 -/

section Bands

variable (al : Fin n → BitVec 32) (sl : Fin 8192 → BitVec 32) (A : Fin n → Fin 128 → EReal) (S : Fin 8192 → Fin 128 → EReal)
  (r : Fin n)

/-- Sample `1024 kb + q` of band `kb`. -/
def bandSample (kb : ℕ) (hkb : kb < 8) (q : Fin 1024) : Fin 8192 := ⟨kb * 1024 + q.val, by have := q.isLt; omega⟩

/-- The hardest positive among the first `kb` bands of samples. -/
def prefPos (kb : ℕ) : EReal := (below 8192 (kb * 1024)).inf (posTerm al sl A S r)
/-- The hardest negative among the first `kb` bands of samples. -/
def prefNeg (kb : ℕ) : EReal := (below 8192 (kb * 1024)).sup (negTerm al sl A S r)
/-- The hardest positive within band `kb`. -/
def bandPos (kb : ℕ) (hkb : kb < 8) : EReal := Finset.univ.inf fun q : Fin 1024 => posTerm al sl A S r (bandSample kb hkb q)
/-- The hardest negative within band `kb`. -/
def bandNeg (kb : ℕ) (hkb : kb < 8) : EReal := Finset.univ.sup fun q : Fin 1024 => negTerm al sl A S r (bandSample kb hkb q)

theorem prefPos_zero : prefPos al sl A S r 0 = ⊤ := by
  unfold prefPos; rw [Nat.zero_mul, below_zero, Finset.inf_empty]

theorem prefNeg_zero : prefNeg al sl A S r 0 = ⊥ := by
  unfold prefNeg; rw [Nat.zero_mul, below_zero, Finset.sup_empty]

theorem prefPos_succ (kb : ℕ) (hkb : kb < 8) :
    prefPos al sl A S r (kb + 1) = min (prefPos al sl A S r kb) (bandPos al sl A S r kb hkb) := by
  unfold prefPos bandPos
  exact inf_below_succ (posTerm al sl A S r) 1024 kb (by omega)

theorem prefNeg_succ (kb : ℕ) (hkb : kb < 8) :
    prefNeg al sl A S r (kb + 1) = max (prefNeg al sl A S r kb) (bandNeg al sl A S r kb hkb) := by
  unfold prefNeg bandNeg
  exact sup_below_succ (negTerm al sl A S r) 1024 kb (by omega)

theorem prefPos_eight : prefPos al sl A S r 8 = hardPos al sl A S r := by
  unfold prefPos hardPos; rw [show 8 * 1024 = 8192 from rfl, below_self]

theorem prefNeg_eight : prefNeg al sl A S r 8 = hardNeg al sl A S r := by
  unfold prefNeg hardNeg; rw [show 8 * 1024 = 8192 from rfl, below_self]

end Bands

end Cert.Triplet

end
-- ==== Proof.Payloads.lean ====
/-
  The kernel body's arithmetic, read at an index over the extended reals.
-/
import proofs.«178952_j40956808135241_1_alg».proof.Proof.Gen.KernelIdeal.Skeleton
import proofs.«178952_j40956808135241_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.PureOps.Reduce

noncomputable section

namespace Cert.KernelIdeal.Pay

open Idealize.ShloMosaic Idealize.ShloMosaic.ValueIdx Cert.KernelIdeal Cert.KernelIdeal.Gen Cert.Triplet

/-! ## Layout operations on a column, read at an index -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A block with every row divided by its scale -/

/-- The lane sum of the squares of row `r`. -/
theorem sumsq_apply {n : ℕ} (x : FVec Ideal ⟨2, ![n, 128]⟩ .f32) (hr : (⟨2, ![n, 128]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ (mulf x x) 0x00000000#32 hr hφ hacc (ix1 r)
      = ∑ d : Fin 128, x (ix2 r d) * x (ix2 r d) := by
  refine (Ideal.multiReduction_add_single (mulf x x) 0x00000000#32 hr hφ hacc (ix1 r)).trans ?_
  refine Finset.sum_congr rfl fun k _ => ?_
  have e : hr.lift (ix1 r) k = ix2 r k := funext fun c => Fin.ext (by match c with | ⟨0, _⟩ => rfl | ⟨1, _⟩ => rfl)
  rw [e]
  rfl

/-- Entry (r, d) of the block divided row by row by the larger of the row's length and `ε`. -/
theorem scaled_apply {n : ℕ} (x : FVec Ideal ⟨2, ![n, 128]⟩ .f32) (hr : (⟨2, ![n, 128]⟩ : Shape).Reduces [1] ⟨1, ![n]⟩)
    (hc : (⟨1, ![n]⟩ : Shape).ShapeCasts ⟨2, ![n, 1]⟩) (hb : (⟨2, ![n, 1]⟩ : Shape).Broadcasts ⟨2, ![n, 128]⟩)
    (hφ : FKind.Formats .f32) (hacc : (0x00000000#32 : BitVec 32) = FKind.add.neutral .f32 hφ) (r : Fin n) (d : Fin 128) :
    divf x (broadcastTo ⟨2, ![n, 128]⟩ (maximumf (sqrt (shapeCast ⟨2, ![n, 1]⟩
        (multiReduction (F := Ideal) .add [1] ⟨1, ![n]⟩ (mulf x x) 0x00000000#32 hr hφ hacc) hc))
        (broadcast ⟨2, ![n, 1]⟩ (Scalar.ofBits .f32 0x2B8CBCCC#32))) hb) (ix2 r d)
      = unitRow (fun a e => x (ix2 a e)) r d := by
  rw [divf_apply, broadcastTo_a1_ab_apply, maximumf_apply]
  show Ideal.div (x (ix2 r d)) (max (Ideal.sqrt (shapeCast ⟨2, ![n, 1]⟩ _ hc (ix2 r 0))) eps) = _
  rw [shapeCast_a_a1_apply, sumsq_apply]
  rfl

/-- The scaled anchor block the first point of a row of points stores: entry (p, d) is row p of the block, scaled. -/
theorem pay3_apply (x0 : Vec Ideal S512x128 .f32) (p : Fin 512) (d : Fin 128) :
    k0_pay3 (F := Ideal) x0 (ix2 p d) = unitRow (fun a e => x0 (ix2 a e)) p d := by
  unfold k0_pay3
  rw [shapeCast_self, truncf_apply]
  exact scaled_apply x0 _ _ _ _ _ p d

/-! ## The two named constants -/

/-- The constant named "pos_big" is `⊤`. -/
theorem posBig_eq_top : Named.named (F := Ideal) Cert.KernelIdeal.κ "pos_big" (φ := .f32) 0x7149F2CA#32 = ⊤ :=
  IdealRules.named_const.ideal_named_scalar _ _ _ _ rfl

/-- The constant named "neg_big" is `⊥`. -/
theorem negBig_eq_bot : Named.named (F := Ideal) Cert.KernelIdeal.κ "neg_big" (φ := .f32) 0xF149F2CA#32 = ⊥ :=
  IdealRules.named_const.ideal_named_scalar _ _ _ _ rfl

/-- The running minimum starts at `⊤`. -/
theorem pay4_apply (p : Fin 512) : k0_pay4 (F := Ideal) (ix2 p 0) = ⊤ := by
  unfold k0_pay4
  rw [shapeCast_self, broadcast_apply]
  exact posBig_eq_top

/-- The running maximum starts at `⊥`. -/
theorem pay5_apply (p : Fin 512) : k0_pay5 (F := Ideal) (ix2 p 0) = ⊥ := by
  unfold k0_pay5
  rw [shapeCast_self, broadcast_apply]
  exact negBig_eq_bot

/-! ## The product of the scratch block with the transposed sample block -/

/-- The left operand's index for entry `i` and shared coordinate `q`: its row is `i`'s row. -/
theorem lhs_dot_S512x128_S128x1024_S512x1024_1_0_0_1_n_n_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
/-- … and its column is the shared coordinate. -/
theorem lhs_dot_S512x128_S128x1024_S512x1024_1_0_0_1_n_n_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
/-- The right operand's index for entry `i` and shared coordinate `q`: its row is the shared coordinate … -/
theorem rhs_dot_S512x128_S128x1024_S512x1024_1_0_0_1_n_n_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
/-- … and its column is `i`'s column. -/
theorem rhs_dot_S512x128_S128x1024_S512x1024_1_0_0_1_n_n_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

/-- Entry (p, q) of the product into a zero accumulator: the sum over the shared axis of row p of the left operand
    times column q of the right one. -/
theorem matmul_rows_cols_apply (l : FVec Ideal S512x128 .bf16) (r : FVec Ideal S128x1024 .bf16) (p : Fin 512) (q : Fin 1024) :
    matmul dot_S512x128_S128x1024_S512x1024_1_0_0_1_n_n none l r (constant (F := Ideal) S512x1024 .f32 0x00000000#32) (ix2 p q)
      = ∑ k : Fin 128, l (ix2 p k) * r (ix2 k q) := by
  simp only [matmul]
  rw [Ideal.matmul_constant_zero_apply, ← Equiv.sum_comp (ValueIdx.contrEquiv1 dot_S512x128_S128x1024_S512x1024_1_0_0_1_n_n 128 rfl rfl).symm]
  refine Finset.sum_congr rfl fun k _ => ?_
  have hk := ValueIdx.contrEquiv1_symm_val dot_S512x128_S128x1024_S512x1024_1_0_0_1_n_n 128 rfl rfl k
  have el : dot_S512x128_S128x1024_S512x1024_1_0_0_1_n_n.lhsIdx (ix2 p q) ((ValueIdx.contrEquiv1 dot_S512x128_S128x1024_S512x1024_1_0_0_1_n_n 128 rfl rfl).symm k) = ix2 p k := funext fun a => Fin.ext (by
    match a with
    | ⟨0, _⟩ => exact lhs_dot_S512x128_S128x1024_S512x1024_1_0_0_1_n_n_0 _ _
    | ⟨1, _⟩ => exact (lhs_dot_S512x128_S128x1024_S512x1024_1_0_0_1_n_n_1 _ _).trans hk)
  have er : dot_S512x128_S128x1024_S512x1024_1_0_0_1_n_n.rhsIdx (ix2 p q) ((ValueIdx.contrEquiv1 dot_S512x128_S128x1024_S512x1024_1_0_0_1_n_n 128 rfl rfl).symm k) = ix2 k q := funext fun a => Fin.ext (by
    match a with
    | ⟨0, _⟩ => exact (rhs_dot_S512x128_S128x1024_S512x1024_1_0_0_1_n_n_0 _ _).trans hk
    | ⟨1, _⟩ => exact rhs_dot_S512x128_S128x1024_S512x1024_1_0_0_1_n_n_1 _ _)
  rw [el, er]

/-- The similarity block: entry (p, q) is the inner product of scaled anchor row p (held in the scratch) and the
    scaled row q of the sample block. -/
theorem pay6_apply (x1 : Vec Ideal S1024x128 .f32) (xs0 : Vec Ideal S512x128 .bf16) (p : Fin 512) (q : Fin 1024) :
    k0_pay6 (F := Ideal) x1 xs0 (ix2 p q) = ∑ d : Fin 128, xs0 (ix2 p d) * unitRow (fun a e => x1 (ix2 a e)) q d := by
  unfold k0_pay6
  refine (matmul_rows_cols_apply xs0 _ p q).trans ?_
  refine Finset.sum_congr rfl fun d _ => ?_
  rw [transpose_ix2_apply, truncf_apply]
  exact congrArg (xs0 (ix2 p d) * ·) (scaled_apply x1 _ _ _ _ _ q d)

/-- The label mask: entry (p, q) compares anchor label p with sample label q. -/
theorem pay7_apply (x2 : Vec Ideal S512x1 .i32) (x3 : Vec Ideal S1x1024 .i32) (p : Fin 512) (q : Fin 1024) :
    k0_pay7 (F := Ideal) x2 x3 (ix2 p q) = IntOp.cmpi .eq (x2 (ix2 p 0)) (x3 (ix2 0 q)) := by
  unfold k0_pay7
  rw [shapeCast_self, shapeCast_self]
  show IntOp.cmpi .eq (broadcastTo S512x1024 x2 broadcasts_S512x1_S512x1024 (ix2 p q))
      (broadcastTo S512x1024 x3 broadcasts_S1x1024_S512x1024 (ix2 p q)) = _
  rw [broadcastTo_a1_ab_apply, broadcastTo_1b_ab_apply]

/-! ## The least and the greatest entry of a row of the band -/

/-- A `minimumf` reduction over one axis is the fold of `min` from the accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word of `+∞` is `⊤`. -/
theorem ofBits_posInf : Ideal.ofBits .f32 0x7F800000#32 = ⊤ := by simp [Ideal.ofBits, Ideal.ieee]

/-- The word of `-∞` is `⊥`. -/
theorem ofBits_negInf : Ideal.ofBits .f32 0xFF800000#32 = ⊥ := by simp [Ideal.ofBits, Ideal.ieee]

/-- The source index of row `p` with lane `q` put back. -/
theorem lift_row (h : S512x1024.Reduces [1] S512) (p : Fin 512) (q : Fin 1024) : h.lift (ix1 p) q = ix2 p q :=
  funext fun c => Fin.ext (by match c with | ⟨0, _⟩ => rfl | ⟨1, _⟩ => rfl)

/-- The `minimumf` reduction of the band's block along its lanes from `+∞`: row `p`'s infimum. -/
theorem rowMin_apply (src : FVec Ideal S512x1024 .f32) (h : S512x1024.Reduces [1] S512) (hφ : FKind.Formats .f32)
    (hacc : (0x7F800000#32 : BitVec 32) = FKind.minimumf.neutral .f32 hφ) (p : Fin 512) :
    multiReduction (F := Ideal) .minimumf [1] S512 src 0x7F800000#32 h hφ hacc (ix1 p)
      = Finset.univ.inf fun q : Fin 1024 => src (ix2 p q) := by
  refine (multiReduction_minimumf_single src _ h hφ hacc (ix1 p)).trans ?_
  rw [Ideal.ofBits_def, ofBits_posInf]
  refine (Cert.LibBands.fold_min_eq_inf _ _).trans ?_
  exact Finset.inf_congr rfl fun q _ => congrArg src (lift_row h p q)

/-- The `maximumf` reduction of the band's block along its lanes from `-∞`: row `p`'s supremum. -/
theorem rowMax_apply (src : FVec Ideal S512x1024 .f32) (h : S512x1024.Reduces [1] S512) (hφ : FKind.Formats .f32)
    (hacc : (0xFF800000#32 : BitVec 32) = FKind.maximumf.neutral .f32 hφ) (p : Fin 512) :
    multiReduction (F := Ideal) .maximumf [1] S512 src 0xFF800000#32 h hφ hacc (ix1 p)
      = Finset.univ.sup fun q : Fin 1024 => src (ix2 p q) := by
  refine (Ideal.multiReduction_maximumf_single src _ h hφ hacc (ix1 p)).trans ?_
  rw [Ideal.ofBits_def, ofBits_negInf]
  refine (Cert.LibBands.fold_max_eq_sup _ _).trans ?_
  exact Finset.sup_congr rfl fun q _ => congrArg src (lift_row h p q)

/-- The new running minimum of row p: the old one met with the band's least masked similarity. -/
theorem pay9_apply (x1 : Vec Ideal S1024x128 .f32) (xs0 : Vec Ideal S512x128 .bf16) (x2 : Vec Ideal S512x1 .i32)
    (x3 : Vec Ideal S1x1024 .i32) (xs1 : Vec Ideal S512x1 .f32) (p : Fin 512) :
    k0_pay9 (F := Ideal) x1 xs0 x2 x3 xs1 (ix2 p 0)
      = min (xs1 (ix2 p 0)) (Finset.univ.inf fun q : Fin 1024 =>
          Scalar.select (IntOp.cmpi .eq (x2 (ix2 p 0)) (x3 (ix2 0 q)))
            (∑ d : Fin 128, xs0 (ix2 p d) * unitRow (fun a e => x1 (ix2 a e)) q d) ⊤) := by
  unfold k0_pay9
  rw [shapeCast_self, minimumf_apply, shapeCast_a_a1_apply]
  refine congrArg (min (xs1 (ix2 p 0))) ?_
  refine (rowMin_apply _ _ _ _ p).trans ?_
  refine Finset.inf_congr rfl fun q _ => ?_
  rw [select_apply, pay7_apply, pay6_apply, broadcast_apply, posBig_eq_top]

/-- The band's greatest masked similarity of row p. -/
theorem pay8_apply (x1 : Vec Ideal S1024x128 .f32) (xs0 : Vec Ideal S512x128 .bf16) (x2 : Vec Ideal S512x1 .i32)
    (x3 : Vec Ideal S1x1024 .i32) (p : Fin 512) :
    k0_pay8 (F := Ideal) x1 xs0 x2 x3 (ix2 p 0)
      = Finset.univ.sup fun q : Fin 1024 =>
          Scalar.select (IntOp.cmpi .eq (x2 (ix2 p 0)) (x3 (ix2 0 q))) ⊥
            (∑ d : Fin 128, xs0 (ix2 p d) * unitRow (fun a e => x1 (ix2 a e)) q d) := by
  unfold k0_pay8
  rw [shapeCast_a_a1_apply]
  refine (rowMax_apply _ _ _ _ p).trans ?_
  refine Finset.sup_congr rfl fun q _ => ?_
  rw [select_apply, pay7_apply, pay6_apply, broadcast_apply, negBig_eq_bot]

/-- The new running maximum of row p: the old one joined with the band's. -/
theorem pay1_apply (v30 : FVec Ideal S512x1 .f32) (v36 : Vec Ideal S512x1 .f32) (p : Fin 512) :
    k0_pay1 (F := Ideal) v30 v36 (ix2 p 0) = max (v36 (ix2 p 0)) (v30 (ix2 p 0)) := by
  unfold k0_pay1
  rw [shapeCast_self, maximumf_apply]

/-- The row's loss from the two running extrema after the last band. -/
theorem pay2_apply (v44 v45 : Vec Ideal S512x1 .f32) (p : Fin 512) :
    k0_pay2 (F := Ideal) v44 v45 (ix1 p) = lossOf (v44 (ix2 p 0)) (v45 (ix2 p 0)) := by
  unfold k0_pay2
  rw [shapeCast_a1_a_apply]
  rfl

end Cert.KernelIdeal.Pay

end
-- ==== Proof.Blocks.lean ====
/-
  What the kernel's windows hold at a grid point: point t = 8 i + kb reads rows 512 i … 512 i + 511 of the anchors and
  their labels, and rows 1024 kb … 1024 kb + 1023 of the samples and their labels.
-/
import proofs.«178952_j40956808135241_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blk

open Idealize.ShloMosaic Idealize.ShloMosaic.TcCoe Idealize.ShloMosaic.ValueIdx Idealize.SL.Sem
open Cert.KernelIdeal Cert.KernelIdeal.Gen

variable {F : FTy → Type} [FloatOps F] [Named F]
variable (m : (ℓ : Loc nD τ sig) → Buf (Elt F) ℓ)

/-- The anchor row that row p of the anchor block at point t is. -/
def anchorRow (t : Fin cfg0.N) (p : Fin 512) : Fin 8192 :=
  ⟨t.val / 8 * 512 + p.val, by have h : t.val < 128 := lt_of_lt_of_eq t.isLt (show cfg0.N = 128 from N_0); have := p.isLt; omega⟩

/-- The sample row that row q of the sample block at point t is. -/
def sampleRow (t : Fin cfg0.N) (q : Fin 1024) : Fin 8192 :=
  ⟨t.val % 8 * 1024 + q.val, by have := q.isLt; omega⟩

/-- Window 0's block index at point t is (t / 8, 0). -/
theorem idx0 : ∀ t : Fin cfg0.N, win0_0.index t (0 : Fin 2) = t.val / 8 ∧ win0_0.index t (1 : Fin 2) = 0 :=
  (by decide +kernel : ∀ t : Fin grid0.N, _)
/-- Window 1's block index at point t is (t % 8, 0). -/
theorem idx1 : ∀ t : Fin cfg0.N, win0_1.index t (0 : Fin 2) = t.val % 8 ∧ win0_1.index t (1 : Fin 2) = 0 :=
  (by decide +kernel : ∀ t : Fin grid0.N, _)
/-- Window 2's block index at point t is (t / 8, 0). -/
theorem idx2 : ∀ t : Fin cfg0.N, win0_2.index t (0 : Fin 2) = t.val / 8 ∧ win0_2.index t (1 : Fin 2) = 0 :=
  (by decide +kernel : ∀ t : Fin grid0.N, _)
/-- Window 3's block index at point t is (0, t % 8). -/
theorem idx3 : ∀ t : Fin cfg0.N, win0_3.index t (0 : Fin 2) = 0 ∧ win0_3.index t (1 : Fin 2) = t.val % 8 :=
  (by decide +kernel : ∀ t : Fin grid0.N, _)

/-- The label column the region finds: the anchors' label vector reshaped [8192] → [8192, 1]. -/
theorem V_main_v0 (c : Dev nD) : (V m c main_v0 : S8192x1.Idx → Elt F .i32)
    = shapeCast S8192x1 (m ((c : Thread nD τ).loc main_arg1)) shapeCasts_S8192_S8192x1 := by
  show StableHlo.after hostOps0 (fun b => m (c, b)) (Proc.devRef .tc main_v0) = _
  after_results
  rfl

/-- The label row the region finds: the samples' label vector reshaped [8192] → [1, 8192]. -/
theorem V_main_v1 (c : Dev nD) : (V m c main_v1 : S1x8192.Idx → Elt F .i32)
    = shapeCast S1x8192 (m ((c : Thread nD τ).loc main_arg3)) shapeCasts_S8192_S1x8192 := by
  show StableHlo.after hostOps0 (fun b => m (c, b)) (Proc.devRef .tc main_v1) = _
  after_results
  rfl

/-- Row p of the anchor block at point t is anchor row 512 (t / 8) + p. -/
theorem iblk0_apply (c : Dev nD) (t : Fin cfg0.N) (p : Fin 512) (d : Fin 128) :
    (iblk m c 0 t : Vec F S512x128 .f32) (ix2 p d) = m ((c : Thread nD τ).loc main_arg0) (ix2 (anchorRow t p) d) := by
  unfold iblk
  rw [View.read_apply]
  show V m c main_arg0 _ = _
  rw [V_main_arg0]
  congr 1
  funext a
  apply Fin.ext
  match a with
  | ⟨0, _⟩ => show win0_0.index t 0 * 512 + 1 * p.val = t.val / 8 * 512 + p.val; rw [(idx0 t).1]; omega
  | ⟨1, _⟩ => show win0_0.index t 1 * 128 + 1 * d.val = d.val; rw [(idx0 t).2]; omega

/-- Row q of the sample block at point t is sample row 1024 (t % 8) + q. -/
theorem iblk1_apply (c : Dev nD) (t : Fin cfg0.N) (q : Fin 1024) (d : Fin 128) :
    (iblk m c 1 t : Vec F S1024x128 .f32) (ix2 q d) = m ((c : Thread nD τ).loc main_arg2) (ix2 (sampleRow t q) d) := by
  unfold iblk
  rw [View.read_apply]
  show V m c main_arg2 _ = _
  rw [V_main_arg2]
  congr 1
  funext a
  apply Fin.ext
  match a with
  | ⟨0, _⟩ => show win0_1.index t 0 * 1024 + 1 * q.val = t.val % 8 * 1024 + q.val; rw [(idx1 t).1]; omega
  | ⟨1, _⟩ => show win0_1.index t 1 * 128 + 1 * d.val = d.val; rw [(idx1 t).2]; omega

/-- Entry p of the anchor-label block at point t is the label of anchor row 512 (t / 8) + p: the reshape keeps the
    row-major position. -/
theorem iblk2_apply (c : Dev nD) (t : Fin cfg0.N) (p : Fin 512) :
    (iblk m c 2 t : Vec F S512x1 .i32) (ix2 p 0) = m ((c : Thread nD τ).loc main_arg1) (ix1 (anchorRow t p)) := by
  unfold iblk
  rw [View.read_apply]
  show V m c main_v0 _ = _
  rw [V_main_v0]
  refine shapeCast_apply (s := S8192) (t := S8192x1) _ _ _ _ ?_
  rw [Shape.rowMajor_val_two, Shape.rowMajor_val_one]
  show t.val / 8 * 512 + p.val = (win0_2.index t 0 * 512 + 1 * p.val) * 1 + (win0_2.index t 1 * 1 + 1 * 0)
  rw [(idx2 t).1, (idx2 t).2]; omega

/-- Entry q of the sample-label block at point t is the label of sample row 1024 (t % 8) + q: the reshape keeps the
    row-major position. -/
theorem iblk3_apply (c : Dev nD) (t : Fin cfg0.N) (q : Fin 1024) :
    (iblk m c 3 t : Vec F S1x1024 .i32) (ix2 0 q) = m ((c : Thread nD τ).loc main_arg3) (ix1 (sampleRow t q)) := by
  unfold iblk
  rw [View.read_apply]
  show V m c main_v1 _ = _
  rw [V_main_v1]
  refine shapeCast_apply (s := S8192) (t := S1x8192) _ _ _ _ ?_
  rw [Shape.rowMajor_val_two, Shape.rowMajor_val_one]
  show t.val % 8 * 1024 + q.val = (win0_3.index t 0 * 1 + 1 * 0) * 8192 + (win0_3.index t 1 * 1024 + 1 * q.val)
  rw [(idx3 t).1, (idx3 t).2]; omega

end Cert.KernelIdeal.Blk

end
-- ==== Proof.KernelValue.lean ====
/-
  What the kernel's carried buffers hold after each grid point, and what its result array ends holding.

  Point t = 8 i + kb works on anchor rows 512 i … 512 i + 511 and on band kb of the samples. After it, for each row p
  of the block: the first scratch holds the scaled anchor row; the second the hardest positive among bands 0 … kb;
  the third the hardest negative among them. By induction on the point: the first point of a row of points resets the
  two running extrema (to ⊤ and ⊥, the extrema over no band) and writes the scaled anchors, every point combines
  the running extrema with its own band's. The last point of a row of points (kb = 7) has seen all eight bands, so
  the block it writes back holds the rows' losses; the sixteen blocks written back tile the result array.
-/
import proofs.«178952_j40956808135241_1_alg».proof.Proof.Pieces
import proofs.«178952_j40956808135241_1_alg».proof.Proof.Payloads
import proofs.«178952_j40956808135241_1_alg».proof.Proof.Blocks
import proofs.«178952_j40956808135241_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.Inv

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blk Cert.KernelIdeal.Pay Cert.KernelIdeal.Pieces Cert.Triplet

/-! ## The three cases, as equations between the buffers' contents -/

section Cases

variable {F : FTy → Type} [FloatOps F] [Named F]
variable (m : (ℓ : Loc nD τ sig) → Buf (Elt F) ℓ)

/-- The blocks a point reads, at their literal types. -/
abbrev blkA (c : Dev nD) (t : Fin cfg0.N) : Vec F S512x128 .f32 := iblk m c 0 t
abbrev blkS (c : Dev nD) (t : Fin cfg0.N) : Vec F S1024x128 .f32 := iblk m c 1 t
abbrev blkAl (c : Dev nD) (t : Fin cfg0.N) : Vec F S512x1 .i32 := iblk m c 2 t
abbrev blkSl (c : Dev nD) (t : Fin cfg0.N) : Vec F S1x1024 .i32 := iblk m c 3 t

/-- What the three scratch buffers hold after point t. -/
abbrev scaledAt (c : Dev nD) (n : ℕ) (hn : n < cfg0.N) : Vec F S512x128 .bf16 := (outsAt0 m c n hn).2.1
abbrev minAt (c : Dev nD) (n : ℕ) (hn : n < cfg0.N) : Vec F S512x1 .f32 := (outsAt0 m c n hn).2.2.1
abbrev maxAt (c : Dev nD) (n : ℕ) (hn : n < cfg0.N) : Vec F S512x1 .f32 := (outsAt0 m c n hn).2.2.2
/-- What the output's staging buffer holds after point t. -/
abbrev outAt (c : Dev nD) (n : ℕ) (hn : n < cfg0.N) : Vec F S512 .f32 := (outsAt0 m c n hn).1

theorem pred_lt (t : Fin cfg0.N) : t.val - 1 < cfg0.N := Nat.lt_of_le_of_lt (Nat.sub_le _ _) t.isLt

/-- A first point of a row of points: the scaled anchors are written, the running extrema reset and updated once. -/
theorem at_first (c : Dev nD) (t : Fin cfg0.N) (h0 : t.val % 8 = 0) (h1 : ¬t.val % 8 = 7) :
    scaledAt m c t.val t.isLt = k0_pay3 (blkA m c t)
    ∧ minAt m c t.val t.isLt = k0_pay9 (blkS m c t) (k0_pay3 (blkA m c t)) (blkAl m c t) (blkSl m c t) (k0_pay4 (F := F))
    ∧ maxAt m c t.val t.isLt = k0_pay1 (k0_pay8 (blkS m c t) (k0_pay3 (blkA m c t)) (blkAl m c t) (blkSl m c t)) (k0_pay5 (F := F)) := by
  unfold scaledAt minAt maxAt
  rw [outsAt0_A m c t h0 h1]
  dsimp only
  exact ⟨scaled_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    min_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    max_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- A middle point: the scaled anchors stay, the running extrema are updated from the point before. -/
theorem at_mid (c : Dev nD) (t : Fin cfg0.N) (h0 : ¬t.val % 8 = 0) (h1 : ¬t.val % 8 = 7) :
    scaledAt m c t.val t.isLt = scaledAt m c (t.val - 1) (pred_lt t)
    ∧ minAt m c t.val t.isLt = k0_pay9 (blkS m c t) (scaledAt m c (t.val - 1) (pred_lt t)) (blkAl m c t) (blkSl m c t) (minAt m c (t.val - 1) (pred_lt t))
    ∧ maxAt m c t.val t.isLt = k0_pay1 (k0_pay8 (blkS m c t) (scaledAt m c (t.val - 1) (pred_lt t)) (blkAl m c t) (blkSl m c t)) (maxAt m c (t.val - 1) (pred_lt t)) := by
  unfold scaledAt minAt maxAt
  rw [outsAt0_B m c t h0 h1]
  dsimp only
  exact ⟨rfl,
    min_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    max_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A last point of a row of points: as a middle point, and the output block is the loss of the updated extrema. -/
theorem at_last (c : Dev nD) (t : Fin cfg0.N) (h0 : ¬t.val % 8 = 0) (h1 : t.val % 8 = 7) :
    scaledAt m c t.val t.isLt = scaledAt m c (t.val - 1) (pred_lt t)
    ∧ minAt m c t.val t.isLt = k0_pay9 (blkS m c t) (scaledAt m c (t.val - 1) (pred_lt t)) (blkAl m c t) (blkSl m c t) (minAt m c (t.val - 1) (pred_lt t))
    ∧ maxAt m c t.val t.isLt = k0_pay1 (k0_pay8 (blkS m c t) (scaledAt m c (t.val - 1) (pred_lt t)) (blkAl m c t) (blkSl m c t)) (maxAt m c (t.val - 1) (pred_lt t))
    ∧ outAt m c t.val t.isLt = k0_pay2 (maxAt m c t.val t.isLt) (minAt m c t.val t.isLt) := by
  unfold scaledAt minAt maxAt outAt
  rw [outsAt0_C m c t h0 h1]
  dsimp only
  refine ⟨rfl,
    min_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    max_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ?_⟩
  rw [loss_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    min_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    max_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

end Cases

/-! ## The buffers' contents, read over the extended reals -/

section Values

variable (m : (ℓ : Loc nD τ sig) → Buf (Elt Ideal) ℓ) (ρ : Dev nD → PrngReg)

/-- The argument arrays, by row. -/
abbrev anchors (c : Dev nD) : Fin 8192 → Fin 128 → EReal := fun a d => m ((c : Thread nD τ).loc main_arg0) (ix2 a d)
abbrev samples (c : Dev nD) : Fin 8192 → Fin 128 → EReal := fun j d => m ((c : Thread nD τ).loc main_arg2) (ix2 j d)
abbrev alab (c : Dev nD) : Fin 8192 → BitVec 32 := fun a => m ((c : Thread nD τ).loc main_arg1) (ix1 a)
abbrev slab (c : Dev nD) : Fin 8192 → BitVec 32 := fun j => m ((c : Thread nD τ).loc main_arg3) (ix1 j)

/-- Row p of the scaled anchor block at point t is the scaled anchor row it reads. -/
theorem scaled_blk (c : Dev nD) (t : Fin cfg0.N) (p : Fin 512) (d : Fin 128) :
    k0_pay3 (F := Ideal) (blkA m c t) (ix2 p d) = unitRow (anchors m c) (anchorRow t p) d := by
  refine (pay3_apply (blkA m c t) p d).trans ?_
  exact unitRow_congr (fun a e => blkA m c t (ix2 a e)) (anchors m c) p (anchorRow t p) (fun e => iblk0_apply m c t p e) d

/-- Sample q of the block at point t is sample q of band t % 8. -/
theorem sampleRow_eq (t : Fin cfg0.N) (hkb : t.val % 8 < 8) (q : Fin 1024) : sampleRow t q = bandSample (t.val % 8) hkb q := rfl

/-- The similarity the body computes for row p and sample q of the point's blocks is the specification's. -/
theorem sim_blk (c : Dev nD) (t : Fin cfg0.N) (p : Fin 512) (q : Fin 1024) (xs0 : Vec Ideal S512x128 .bf16)
    (hs : ∀ d, xs0 (ix2 p d) = unitRow (anchors m c) (anchorRow t p) d) :
    (∑ d : Fin 128, xs0 (ix2 p d) * unitRow (fun a e => blkS m c t (ix2 a e)) q d)
      = cosSim (anchors m c) (samples m c) (anchorRow t p) (sampleRow t q) := by
  unfold cosSim
  refine Finset.sum_congr rfl fun d _ => ?_
  rw [hs d, unitRow_congr (fun a e => blkS m c t (ix2 a e)) (samples m c) q (sampleRow t q) (fun e => iblk1_apply m c t q e) d]

/-- One update of the running minimum: from the hardest positive among the bands before to the one including this band. -/
theorem pos_step (c : Dev nD) (t : Fin cfg0.N) (p : Fin 512) (xs0 : Vec Ideal S512x128 .bf16) (xs1 : Vec Ideal S512x1 .f32)
    (hs : ∀ d, xs0 (ix2 p d) = unitRow (anchors m c) (anchorRow t p) d)
    (hp : xs1 (ix2 p 0) = prefPos (alab m c) (slab m c) (anchors m c) (samples m c) (anchorRow t p) (t.val % 8)) :
    k0_pay9 (F := Ideal) (blkS m c t) xs0 (blkAl m c t) (blkSl m c t) xs1 (ix2 p 0)
      = prefPos (alab m c) (slab m c) (anchors m c) (samples m c) (anchorRow t p) (t.val % 8 + 1) := by
  have hkb : t.val % 8 < 8 := Nat.mod_lt _ (by decide)
  rw [prefPos_succ _ _ _ _ _ _ hkb]
  refine (pay9_apply (blkS m c t) xs0 (blkAl m c t) (blkSl m c t) xs1 p).trans ?_
  rw [hp]
  refine congrArg (min _) (Finset.inf_congr rfl fun q _ => ?_)
  unfold posTerm
  rw [sim_blk m c t p q xs0 hs, ← sampleRow_eq t hkb q]
  rw [show blkAl m c t (ix2 p 0) = alab m c (anchorRow t p) from iblk2_apply m c t p,
    show blkSl m c t (ix2 0 q) = slab m c (sampleRow t q) from iblk3_apply m c t q]

/-- One update of the running maximum. -/
theorem neg_step (c : Dev nD) (t : Fin cfg0.N) (p : Fin 512) (xs0 : Vec Ideal S512x128 .bf16) (xs2 : Vec Ideal S512x1 .f32)
    (hs : ∀ d, xs0 (ix2 p d) = unitRow (anchors m c) (anchorRow t p) d)
    (hp : xs2 (ix2 p 0) = prefNeg (alab m c) (slab m c) (anchors m c) (samples m c) (anchorRow t p) (t.val % 8)) :
    k0_pay1 (F := Ideal) (k0_pay8 (blkS m c t) xs0 (blkAl m c t) (blkSl m c t)) xs2 (ix2 p 0)
      = prefNeg (alab m c) (slab m c) (anchors m c) (samples m c) (anchorRow t p) (t.val % 8 + 1) := by
  have hkb : t.val % 8 < 8 := Nat.mod_lt _ (by decide)
  rw [prefNeg_succ _ _ _ _ _ _ hkb]
  refine (pay1_apply (k0_pay8 (blkS m c t) xs0 (blkAl m c t) (blkSl m c t)) xs2 p).trans ?_
  rw [hp]
  refine congrArg (max _) ?_
  refine (pay8_apply (blkS m c t) xs0 (blkAl m c t) (blkSl m c t) p).trans ?_
  refine Finset.sup_congr rfl fun q _ => ?_
  unfold negTerm
  rw [sim_blk m c t p q xs0 hs, ← sampleRow_eq t hkb q]
  rw [show blkAl m c t (ix2 p 0) = alab m c (anchorRow t p) from iblk2_apply m c t p,
    show blkSl m c t (ix2 0 q) = slab m c (sampleRow t q) from iblk3_apply m c t q]

/-- After point n: the scaled anchor rows of its block, and the two extrema over the bands up to its own. -/
def Holds (c : Dev nD) (n : ℕ) (hn : n < cfg0.N) : Prop :=
  (∀ (p : Fin 512) (d : Fin 128), scaledAt m c n hn (ix2 p d) = unitRow (anchors m c) (anchorRow ⟨n, hn⟩ p) d)
  ∧ (∀ p : Fin 512, minAt m c n hn (ix2 p 0) = prefPos (alab m c) (slab m c) (anchors m c) (samples m c) (anchorRow ⟨n, hn⟩ p) (n % 8 + 1))
  ∧ (∀ p : Fin 512, maxAt m c n hn (ix2 p 0) = prefNeg (alab m c) (slab m c) (anchors m c) (samples m c) (anchorRow ⟨n, hn⟩ p) (n % 8 + 1))

theorem holds_first (c : Dev nD) (t : Fin cfg0.N) (h0 : t.val % 8 = 0) : Holds m c t.val t.isLt := by
  have h1 : ¬t.val % 8 = 7 := by omega
  obtain ⟨e0, e1, e2⟩ := at_first m c t h0 h1
  refine ⟨fun p d => ?_, fun p => ?_, fun p => ?_⟩
  · rw [e0]; exact scaled_blk m c t p d
  · rw [e1]
    exact pos_step m c t p (k0_pay3 (blkA m c t)) (k0_pay4 (F := Ideal)) (fun d => scaled_blk m c t p d)
      (by rw [pay4_apply, h0, prefPos_zero])
  · rw [e2]
    exact neg_step m c t p (k0_pay3 (blkA m c t)) (k0_pay5 (F := Ideal)) (fun d => scaled_blk m c t p d)
      (by rw [pay5_apply, h0, prefNeg_zero])

theorem holds_next (c : Dev nD) (t : Fin cfg0.N) (h0 : ¬t.val % 8 = 0) (ih : Holds m c (t.val - 1) (pred_lt t)) :
    Holds m c t.val t.isLt := by
  obtain ⟨i0, i1, i2⟩ := ih
  have hrow : ∀ p, anchorRow ⟨t.val - 1, pred_lt t⟩ p = anchorRow t p := fun p => Fin.ext (by
    show (t.val - 1) / 8 * 512 + p.val = t.val / 8 * 512 + p.val
    have : (t.val - 1) / 8 = t.val / 8 := by omega
    rw [this])
  have hband : (t.val - 1) % 8 + 1 = t.val % 8 := by omega
  have hs : scaledAt m c t.val t.isLt = scaledAt m c (t.val - 1) (pred_lt t)
      ∧ minAt m c t.val t.isLt = k0_pay9 (blkS m c t) (scaledAt m c (t.val - 1) (pred_lt t)) (blkAl m c t) (blkSl m c t) (minAt m c (t.val - 1) (pred_lt t))
      ∧ maxAt m c t.val t.isLt = k0_pay1 (k0_pay8 (blkS m c t) (scaledAt m c (t.val - 1) (pred_lt t)) (blkAl m c t) (blkSl m c t)) (maxAt m c (t.val - 1) (pred_lt t)) := by
    by_cases h1 : t.val % 8 = 7
    · exact ⟨(at_last m c t h0 h1).1, (at_last m c t h0 h1).2.1, (at_last m c t h0 h1).2.2.1⟩
    · exact at_mid m c t h0 h1
  obtain ⟨e0, e1, e2⟩ := hs
  have hsc : ∀ p d, scaledAt m c (t.val - 1) (pred_lt t) (ix2 p d) = unitRow (anchors m c) (anchorRow t p) d :=
    fun p d => (i0 p d).trans (by rw [hrow p])
  refine ⟨fun p d => ?_, fun p => ?_, fun p => ?_⟩
  · rw [e0]; exact hsc p d
  · rw [e1]
    exact pos_step m c t p _ _ (hsc p) ((i1 p).trans (by rw [hrow p, hband]))
  · rw [e2]
    exact neg_step m c t p _ _ (hsc p) ((i2 p).trans (by rw [hrow p, hband]))

/-- By induction on the point. -/
theorem holds (c : Dev nD) : ∀ (n : ℕ) (hn : n < cfg0.N), Holds m c n hn := by
  intro n
  induction n with
  | zero => intro hn; exact holds_first m c ⟨0, hn⟩ rfl
  | succ n ih =>
    intro hn
    by_cases h0 : (n + 1) % 8 = 0
    · exact holds_first m c ⟨n + 1, hn⟩ h0
    · exact holds_next m c ⟨n + 1, hn⟩ h0 (ih (Nat.lt_of_succ_lt hn))

/-- The block a last point of a row of points writes back holds its rows' losses. -/
theorem out_last (c : Dev nD) (t : Fin cfg0.N) (h7 : t.val % 8 = 7) (p : Fin 512) :
    outAt m c t.val t.isLt (ix1 p) = rowLoss (alab m c) (slab m c) (anchors m c) (samples m c) (anchorRow t p) := by
  have h0 : ¬t.val % 8 = 0 := by omega
  obtain ⟨_, hmin, hmax⟩ := holds m c t.val t.isLt
  rw [(at_last m c t h0 h7).2.2.2]
  refine (pay2_apply _ _ p).trans ?_
  rw [hmax p, hmin p, h7, show 7 + 1 = 8 from rfl, prefPos_eight, prefNeg_eight]
  rfl

/-! ## The result array -/

/-- The per-row losses, as the contents of the kernel's result array. -/
def lossArr (c : Dev nD) : Buf (Elt Ideal) ((c : Thread nD τ).loc main_v2) :=
  fun i => rowLoss (alab m c) (slab m c) (anchors m c) (samples m c) ⟨(i 0).val, (i 0).isLt⟩

/-- The result window's block index at point t is t / 8 (decided over the grid). -/
theorem idx4 : ∀ t : Fin cfg0.N, win0_4.index t (0 : Fin 1) = t.val / 8 :=
  (by decide +kernel : ∀ t : Fin grid0.N, win0_4.index t (0 : Fin 1) = t.val / 8)

/-- What a writing point writes back is its block of the per-row losses. -/
theorem flushed_eq (c : Dev nD) (t : Fin cfg0.N) (hf : (cfg0.win 4).flush t = true) :
    (dats m 0 c).flushed 4 t = ((cfg0.win 4).blk t).view.read (Elt Ideal) (lossArr m c) := by
  have h7 : t.val % 8 = 7 := (flush0_4 t).mp hf
  show (cfg0.win 4).cut (grid0.coords t) ((dats m 0 c).after 4 t) = _
  rw [after0_4]
  funext j
  have hj : (j 0).val < 512 := (j 0).isLt
  have ej : (j : S512.Idx) = ix1 (⟨(j 0).val, hj⟩ : Fin 512) := funext fun a => by match a with | ⟨0, _⟩ => rfl
  show outAt m c t.val t.isLt j = lossArr m c (((cfg0.win 4).blk t).view.emb j)
  refine (congrArg (outAt m c t.val t.isLt) ej).trans ((out_last m c t h7 ⟨(j 0).val, hj⟩).trans ?_)
  unfold lossArr
  refine congrArg (rowLoss (alab m c) (slab m c) (anchors m c) (samples m c)) (Fin.ext ?_)
  show t.val / 8 * 512 + (j 0).val = win0_4.index t (0 : Fin 1) * 512 + 1 * (j 0).val
  rw [idx4 t]; omega

/-- The sixteen blocks written back tile the result array, so it ends holding the per-row losses. -/
theorem final (c : Dev nD) : (dats m 0 c).arrAt 4 cfg0.N = lossArr m c :=
  (dats m 0 c).arrAt_eq_of_cover 4 (lossArr m c) (flushed_eq m c) fun i => by
    have hi : (i 0).val < 8192 := (i 0).isLt
    have hN : cfg0.N = 128 := N_0
    let t : Fin cfg0.N := ⟨(i 0).val / 512 * 8 + 7, by omega⟩
    have ht : t.val = (i 0).val / 512 * 8 + 7 := rfl
    refine ⟨t, (flush0_4 t).mpr (by rw [ht]; omega), ?_⟩
    show i ∈ ((View.whole main_v2).slice (win0_4.rect t)).set
    rw [View.set_slice_whole, Rect.mem_set_unit]
    intro a
    match a with
    | ⟨0, _⟩ =>
      show win0_4.index t (0 : Fin 1) * 512 ≤ (i 0).val ∧ (i 0).val < win0_4.index t (0 : Fin 1) * 512 + 512
      rw [idx4 t, ht]
      omega

end Values

/-! ## The run -/

section Run

variable (m : (ℓ : Loc nD τ sig) → Buf (Elt Ideal) ℓ) (ρ : Dev nD → PrngReg)

/-- The mean of the 8192 row losses, as the host operations after the kernel compute it. -/
abbrev meanOf (v : FVec Ideal S8192 .f32) : FVec Ideal S_ .f32 :=
  Host.divf (Host.reduceAdd (F := Ideal) v (constant S_ .f32 0x00000000#32) reducesTo_S8192_S_d0 h_S_) (constant S_ .f32 0x46000000#32)

/-- The host operations after the kernel read the result array the kernel left: the program's result is the mean of
    the per-row losses. -/
theorem tail_eq (c : Dev nD) :
    Pipeline.afterTail₀ cfgs (dats m) 0 (V0 m) [hostOps1] c main_v4 = meanOf (lossArr m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = lossArr m c := (Pipeline.withArrays_arr spec0 launch0.win.arr_inj c _ _ 4).trans (final m c)
  rw [e]

/-- Every weakly fair execution of the idealized kernel program ends with its result at the mean of the per-row losses
    and its arguments unchanged. -/
theorem run : θ_run defs (onTc (τ := τ) (main (F := Ideal))) ⟨m, fun _ => 0, ρ⟩ fun r => ∀ c : Dev nD,
      r.2.mem ((c.tc : Thread nD τ).loc main_v4) = meanOf (lossArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Run

end Cert.KernelIdeal.Inv

end
-- ==== Proof.RefRows.lean ====
/-
  The reference, row by row: the array the reference sums at the end holds, at row `r`, the loss of anchor `r`.

  Read stage by stage: each input's rows divided by their scales are the specification's scaled rows; the product of
  the scaled anchors with the transposed scaled samples holds the similarities; where the labels agree the positives'
  array holds the similarity and `⊤` elsewhere, the negatives' array `⊥` and the similarity elsewhere; the minimum
  of the first from `⊤` and the maximum of the second from `⊥` over the samples are the infimum and the supremum;
  their difference plus the margin, clipped at zero, is the row's loss.
-/
import proofs.«178952_j40956808135241_1_alg».proof.Proof.Gen.ReferenceIdeal.Read
import proofs.«178952_j40956808135241_1_alg».proof.Proof.Spec
import Idealize.ShloMosaic.Lib.ValueIdx
import Idealize.ShloMosaic.PureOps.Ideal.Laws
import Idealize.ShloMosaic.PureOps.Reduce

noncomputable section

namespace Cert.Triplet.Ref

open Idealize.ShloMosaic Idealize.ShloMosaic.ValueIdx Cert.ReferenceIdeal Cert.ReferenceIdeal.Read Cert.Triplet

/-! ## The words of the two infinities -/

theorem ofBits_posInf : Ideal.ofBits .f32 0x7F800000#32 = ⊤ := by simp [Ideal.ofBits, Ideal.ieee]

theorem ofBits_negInf : Ideal.ofBits .f32 0xFF800000#32 = ⊥ := by simp [Ideal.ofBits, Ideal.ieee]

/-! ## The scaled rows -/

/-- The scaled anchors at row `r`, column `d`. -/
theorem v7_row (x0 : (⟨S8192x128, .f32⟩ : BufTy).Contents (Elt Ideal)) (r : Fin 8192) (d : Fin 128) :
    val_main_v7 (F := Ideal) x0 (ix2 r d) = unitRow (fun a e => x0 (ix2 a e)) r d := by
  have e1 : idx_main_v2 (idx_main_v6 (ix2 r d)) = ix1 r :=
    funext fun a => Fin.ext (by match a with | ⟨0, _⟩ => rfl)
  have e2 : ∀ k : Fin 128, idx_main_v1 (ix1 r) k = ix2 r k := fun k =>
    funext fun a => Fin.ext (by match a with | ⟨0, _⟩ => rfl | ⟨1, _⟩ => rfl)
  rw [val_main_v7_apply, val_main_v6_apply, val_main_v5_apply, val_main_v3_apply, val_main_v2_apply, e1,
    val_main_v1_apply, val_main_v4_apply, val_main_cst_0_apply, val_main_cst_apply]
  simp only [e2, val_main_v0_apply, Ideal.hostDivf_def, Ideal.maximumf_def, Ideal.hostUnary_sqrt_def, Ideal.ofBits_def,
    Ideal.mulf_def, Ideal.ofBits_zero_f32, zero_add]
  rfl

/-- The scaled samples at row `j`, column `d`. -/
theorem v15_row (x2 : (⟨S8192x128, .f32⟩ : BufTy).Contents (Elt Ideal)) (j : Fin 8192) (d : Fin 128) :
    val_main_v15 (F := Ideal) x2 (ix2 j d) = unitRow (fun a e => x2 (ix2 a e)) j d := by
  have e1 : idx_main_v10 (idx_main_v14 (ix2 j d)) = ix1 j :=
    funext fun a => Fin.ext (by match a with | ⟨0, _⟩ => rfl)
  have e2 : ∀ k : Fin 128, idx_main_v9 (ix1 j) k = ix2 j k := fun k =>
    funext fun a => Fin.ext (by match a with | ⟨0, _⟩ => rfl | ⟨1, _⟩ => rfl)
  rw [val_main_v15_apply, val_main_v14_apply, val_main_v13_apply, val_main_v11_apply, val_main_v10_apply, e1,
    val_main_v9_apply, val_main_v12_apply, val_main_cst_2_apply, val_main_cst_1_apply]
  simp only [e2, val_main_v8_apply, Ideal.hostDivf_def, Ideal.maximumf_def, Ideal.hostUnary_sqrt_def, Ideal.ofBits_def,
    Ideal.mulf_def, Ideal.ofBits_zero_f32, zero_add]
  rfl

/-! ## The similarities and the two masked arrays -/

/-- The product of the scaled anchors with the transposed scaled samples at `(r, j)` is the similarity. -/
theorem v17_entry (x0 x2 : (⟨S8192x128, .f32⟩ : BufTy).Contents (Elt Ideal)) (r j : Fin 8192) :
    val_main_v17 (F := Ideal) x0 x2 (ix2 r j)
      = cosSim (fun a e => x0 (ix2 a e)) (fun a e => x2 (ix2 a e)) r j := by
  have el : ∀ k : Fin 128, lidx_main_v17 (ix2 r j) k = ix2 r k := fun k =>
    funext fun a => Fin.ext (by match a with | ⟨0, _⟩ => rfl | ⟨1, _⟩ => rfl)
  have er : ∀ k : Fin 128, idx_main_v16 (ridx_main_v17 (ix2 r j) k) = ix2 j k := fun k =>
    funext fun a => Fin.ext (by match a with | ⟨0, _⟩ => rfl | ⟨1, _⟩ => rfl)
  rw [val_main_v17_apply]
  unfold cosSim
  refine Finset.sum_congr rfl fun k _ => ?_
  rw [val_main_v16_apply, el, er, v7_row, v15_row]

/-- The label comparison at `(r, j)`. -/
theorem v22_entry (x1 x3 : (⟨S8192, .i32⟩ : BufTy).Contents (Elt Ideal)) (r j : Fin 8192) :
    val_main_v22 (F := Ideal) x1 x3 (ix2 r j) = IntOp.cmpi .eq (x1 (ix1 r)) (x3 (ix1 j)) := by
  have e1 : idx_main_v18 (idx_main_v20 (ix2 r j)) = ix1 r :=
    funext fun a => Fin.ext (by match a with | ⟨0, _⟩ => rfl)
  have e3 : idx_main_v19 (idx_main_v21 (ix2 r j)) = ix1 j :=
    funext fun a => Fin.ext (by match a with | ⟨0, _⟩ => rfl)
  rw [val_main_v22_apply, val_main_v20_apply, val_main_v18_apply, e1, val_main_v21_apply, val_main_v19_apply, e3]

/-- The positives' array at `(r, j)`. -/
theorem v23_entry (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r j : Fin 8192) :
    val_main_v23 (F := Ideal) x0 x1 x2 x3 (ix2 r j)
      = posTerm (fun a => x1 (ix1 a)) (fun b => x3 (ix1 b)) (fun a e => x0 (ix2 a e)) (fun b e => x2 (ix2 b e)) r j := by
  rw [val_main_v23_apply, v22_entry, v17_entry, val_main_call0_v0_apply, val_main_cst_3_apply, Ideal.ofBits_def,
    ofBits_posInf]
  rfl

/-- The negatives' array at `(r, j)`. -/
theorem v26_entry (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r j : Fin 8192) :
    val_main_v26 (F := Ideal) x0 x1 x2 x3 (ix2 r j)
      = negTerm (fun a => x1 (ix1 a)) (fun b => x3 (ix1 b)) (fun a e => x0 (ix2 a e)) (fun b e => x2 (ix2 b e)) r j := by
  rw [val_main_v26_apply, v22_entry, v17_entry, val_main_call1_v0_apply, val_main_v25_apply, val_main_cst_5_apply,
    Ideal.hostNegf_def, Ideal.negf_def, Ideal.ofBits_def, ofBits_posInf, EReal.neg_top]
  rfl

/-! ## The two reductions over the samples -/

/-- The shape fact the inserted index is named from. -/
theorem reduces_d1 : S8192x8192.Reduces [1] S8192 := by decide

/-- Row `r` with sample `k` inserted is the index `(r, k)`. -/
theorem lift_row (r : Fin 8192) (k : Fin 8192) : reduces_d1.lift (ix1 r) k = ix2 r k :=
  funext fun a => Fin.ext (by match a with | ⟨0, _⟩ => rfl | ⟨1, _⟩ => rfl)

/-- The minimum over the samples of the positives' array is the hardest positive. -/
theorem v24_entry (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r : Fin 8192) :
    val_main_v24 (F := Ideal) x0 x1 x2 x3 (ix1 r)
      = hardPos (fun a => x1 (ix1 a)) (fun b => x3 (ix1 b)) (fun a e => x0 (ix2 a e)) (fun b e => x2 (ix2 b e)) r := by
  unfold val_main_v24 hardPos
  rw [Host.reduce_eq_fold_single _ _ _ Gen.reducesTo_S8192x8192_S8192_d1 reduces_d1 Gen.h_S_ (ix1 r)]
  have hf : (val_main_v23 (F := Ideal) x0 x1 x2 x3 ∘ reduces_d1.lift (ix1 r))
      = posTerm (fun a => x1 (ix1 a)) (fun b => x3 (ix1 b)) (fun a e => x0 (ix2 a e)) (fun b e => x2 (ix2 b e)) r :=
    funext fun k => (congrArg (val_main_v23 (F := Ideal) x0 x1 x2 x3) (lift_row r k)).trans (v23_entry x0 x1 x2 x3 r k)
  rw [hf, val_main_cst_4_apply, Ideal.ofBits_def, ofBits_posInf]
  exact Cert.LibBands.fold_min_eq_inf _ _

/-- The maximum over the samples of the negatives' array is the hardest negative. -/
theorem v27_entry (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r : Fin 8192) :
    val_main_v27 (F := Ideal) x0 x1 x2 x3 (ix1 r)
      = hardNeg (fun a => x1 (ix1 a)) (fun b => x3 (ix1 b)) (fun a e => x0 (ix2 a e)) (fun b e => x2 (ix2 b e)) r := by
  unfold val_main_v27 hardNeg
  rw [Host.reduce_eq_fold_single _ _ _ Gen.reducesTo_S8192x8192_S8192_d1 reduces_d1 Gen.h_S_ (ix1 r)]
  have hf : (val_main_v26 (F := Ideal) x0 x1 x2 x3 ∘ reduces_d1.lift (ix1 r))
      = negTerm (fun a => x1 (ix1 a)) (fun b => x3 (ix1 b)) (fun a e => x0 (ix2 a e)) (fun b e => x2 (ix2 b e)) r :=
    funext fun k => (congrArg (val_main_v26 (F := Ideal) x0 x1 x2 x3) (lift_row r k)).trans (v26_entry x0 x1 x2 x3 r k)
  rw [hf, val_main_cst_6_apply, Ideal.ofBits_def, ofBits_negInf]
  exact Cert.LibBands.fold_max_eq_sup _ _

/-! ## The row's loss -/

/-- The per-row array of the reference (its value before the closing mean) at row `r` is the row's loss. -/
theorem ref_row (x0 : (⟨S8192x128, .f32⟩ : BufTy).Contents (Elt Ideal)) (x1 : (⟨S8192, .i32⟩ : BufTy).Contents (Elt Ideal))
    (x2 : (⟨S8192x128, .f32⟩ : BufTy).Contents (Elt Ideal)) (x3 : (⟨S8192, .i32⟩ : BufTy).Contents (Elt Ideal)) (r : Fin 8192) :
    val_main_v31 (F := Ideal) x0 x1 x2 x3 (ix1 r)
      = rowLoss (fun a => x1 (ix1 a)) (fun j => x3 (ix1 j)) (fun a d => x0 (ix2 a d)) (fun j d => x2 (ix2 j d)) r := by
  rw [val_main_v31_apply, val_main_v30_apply, val_main_v28_apply, v27_entry, v24_entry, val_main_v29_apply,
    val_main_cst_7_apply, val_main_call2_v0_apply, val_main_call2_cst_apply]
  rfl

end Cert.Triplet.Ref

end
-- ==== Proof.lean ====
/-
  The certificate of a triplet cosine loss: a kernel that, for blocks of 512 anchors, streams the samples in eight bands
  of 1024, keeping per anchor a running minimum of the similarities to samples of its own label and a running maximum
  of the similarities to the others, and at the last band writes max (hardest negative - hardest positive + margin) 0;
  the mean of the 8192 rows is taken after the kernel. Against the reference that forms the whole [8192, 8192]
  similarity matrix and takes the two extrema along its rows at once.

  Over the extended reals the two agree: the kernel's finite stand-ins for the infinities are named and read ⊤ and ⊥
  (the reference's fills are the words of ±∞ themselves); a row's scaling and the inner products are the same sums on
  both sides; and a minimum (maximum) over 8192 samples taken band by band from ⊤ (⊥) is the infimum (supremum) over
  all of them, by the universal property of the extremum, whatever the order. No algebraic law that needs finite
  values is used, so the precondition is not opened.

  The three frames are the generated ones (the reference's is its generated run with the result dropped); the four
  conjuncts of the idealization are the named constants' statements; the value claim joins the kernel's run
  (the per-row losses in its result array, then the closing mean) with the reference's run read row by row.
-/
import proofs.«178952_j40956808135241_1_alg».proof.Defs
import proofs.«178952_j40956808135241_1_alg».proof.Proof.Gen.Kernel
import proofs.«178952_j40956808135241_1_alg».proof.Proof.Gen.Kernel.Skeleton
import proofs.«178952_j40956808135241_1_alg».proof.Proof.Gen.Kernel.Launch
import proofs.«178952_j40956808135241_1_alg».proof.Proof.Gen.Kernel.Points
import proofs.«178952_j40956808135241_1_alg».proof.Proof.Gen.Kernel.Frame
import proofs.«178952_j40956808135241_1_alg».proof.Proof.Gen.KernelIdeal
import proofs.«178952_j40956808135241_1_alg».proof.Proof.Gen.KernelIdeal.Skeleton
import proofs.«178952_j40956808135241_1_alg».proof.Proof.Gen.KernelIdeal.Launch
import proofs.«178952_j40956808135241_1_alg».proof.Proof.Gen.KernelIdeal.Points
import proofs.«178952_j40956808135241_1_alg».proof.Proof.Gen.KernelIdeal.Frame
import proofs.«178952_j40956808135241_1_alg».proof.Proof.Gen.ReferenceIdeal
import proofs.«178952_j40956808135241_1_alg».proof.Proof.Gen.Pre_finite_inputs
import proofs.«178952_j40956808135241_1_alg».proof.Proof.Gen.ReferenceIdeal.Run
import proofs.«178952_j40956808135241_1_alg».proof.Proof.Gen.ReferenceIdeal.Read
import proofs.«178952_j40956808135241_1_alg».proof.Proof.KernelValue
import proofs.«178952_j40956808135241_1_alg».proof.Proof.RefRows
import Idealize.ShloMosaic.PureOps.IdealRules
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The certificate's table reads the kernel's two stand-ins as the infinities they stand for. -/
theorem preserves : Cert.preserves_Kernel_KernelIdeal :=
  ⟨IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big" .f32 0xF149F2CA#32 ⊥ rfl⟩

/-- The reference's per-row array, of the kernel's arguments, is the array of per-row losses the kernel leaves. -/
theorem rows_eq (m : (ℓ : Loc Cert.KernelIdeal.nD Cert.KernelIdeal.τ Cert.KernelIdeal.sig) → Buf (Elt Ideal) ℓ)
    (c : Dev Cert.KernelIdeal.nD) :
    Cert.ReferenceIdeal.Read.val_main_v31 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Inv.lossArr m c := by
  funext i
  exact (congrArg _ (eq_ix1 i)).trans (Cert.Triplet.Ref.ref_row _ _ _ _ (i 0))

/-- From arguments that agree both programs end at the mean of the same per-row losses. -/
theorem algebraic : Cert.algebraic_KernelIdeal_ReferenceIdeal := by
  intro m ρ m' ρ' _ hagree
  refine ⟨fun c => Cert.KernelIdeal.Inv.meanOf (Cert.KernelIdeal.Inv.lossArr m c), Cert.KernelIdeal.Inv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2]
  unfold Cert.ReferenceIdeal.Read.val_main_v33 Cert.ReferenceIdeal.Read.val_main_v32
  rw [rows_eq m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
